-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_784" .f32 0x3AA72F05#32 ((1 / 784 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S64x784 : Shape := ⟨2, ![64, 784]⟩
abbrev S1x64 : Shape := ⟨2, ![1, 64]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S64x784 : S_.BroadcastsInDim S64x784 (![] : Fin 0 → Fin S64x784.rank)
  reducesTo_S64x784_S_d0_1 : S64x784.ReducesTo [0, 1] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S65536x784 .f32) (main_arg1 : FVec F S64x784 .f32) (main_arg2 : FVec F S1x64 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S64x784 .f32 := Host.absf main_arg1
  let main_cst_0 : FVec F S_ .f32 := constant S_ .f32 0x7F800000#32
  let main_v5 : FVec F S64x784 .f32 := broadcastInDim S64x784 ![] bcast_S_S64x784 main_cst_0
  let main_v6 : IVec S64x784 1 := cmpf .olt main_v4 main_v5
  let main_c_1 : IVec S_ 1 := constantI S_ 1 1#1
  let main_v7 : IVec S_ 1 := (fun x v => Host.reduce IntOp.andi x v reducesTo_S64x784_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S65536x784 : Shape := ⟨2, ![65536, 784]⟩
abbrev S64x784 : Shape := ⟨2, ![64, 784]⟩
abbrev S1x64 : Shape := ⟨2, ![1, 64]⟩
abbrev S784x64 : Shape := ⟨2, ![784, 64]⟩
abbrev S_ : Shape := ⟨0, ![]⟩
abbrev S64 : Shape := ⟨1, ![64]⟩
abbrev S64x1 : Shape := ⟨2, ![64, 1]⟩
abbrev S1 : Shape := ⟨1, ![1]⟩
abbrev S1x1 : Shape := ⟨2, ![1, 1]⟩
abbrev S65536x1 : Shape := ⟨2, ![65536, 1]⟩
abbrev S2048x784 : Shape := ⟨2, ![2048, 784]⟩
abbrev S2048x1 : Shape := ⟨2, ![2048, 1]⟩
abbrev S2048 : Shape := ⟨1, ![2048]⟩
abbrev S2048x64 : Shape := ⟨2, ![2048, 64]⟩

abbrev nBuf : Space → Nat
  | .hbm => 14
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S64x784, .f32⟩
  | .hbm, ⟨2, _⟩ => ⟨S1x64, .f32⟩
  | .hbm, ⟨3, _⟩ => ⟨S784x64, .f32⟩
  | .hbm, ⟨4, _⟩ => ⟨S784x64, .bf16⟩
  | .hbm, ⟨5, _⟩ => ⟨S_, .f32⟩
  | .hbm, ⟨6, _⟩ => ⟨S64, .f32⟩
  | .hbm, ⟨7, _⟩ => ⟨S1x64, .f32⟩
  | .hbm, ⟨8, _⟩ => ⟨S64x1, .f32⟩
  | .hbm, ⟨9, _⟩ => ⟨S64x1, .bf16⟩
  | .hbm, ⟨10, _⟩ => ⟨S_, .f32⟩
  | .hbm, ⟨11, _⟩ => ⟨S1, .f32⟩
  | .hbm, ⟨12, _⟩ => ⟨S1x1, .f32⟩
  | .hbm, ⟨13, _⟩ => ⟨S65536x1, .f32⟩
  | .local _ .vmem, ⟨0, _⟩ => ⟨S2048x784, .f32⟩
  | .local _ .vmem, ⟨1, _⟩ => ⟨S2048x784, .f32⟩
  | .local _ .vmem, ⟨2, _⟩ => ⟨S784x64, .bf16⟩
  | .local _ .vmem, ⟨3, _⟩ => ⟨S1x64, .f32⟩
  | .local _ .vmem, ⟨4, _⟩ => ⟨S64x1, .bf16⟩
  | .local _ .vmem, ⟨5, _⟩ => ⟨S1x1, .f32⟩
  | .local _ .vmem, ⟨6, _⟩ => ⟨S2048x1, .f32⟩
  | .local _ .vmem, ⟨7, _⟩ => ⟨S2048x1, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x784_S784x64_1_0 : S64x784.Transposes [1, 0] S784x64
  bitsLt_bf16_f32 : FTy.bits .bf16 < FTy.bits .f32
  reducesTo_S64x784_S64_d1 : S64x784.ReducesTo [1] S64
  h_S_ : 0 < S_.numel
  shapeCasts_S64_S1x64 : S64.ShapeCasts S1x64
  transposes_S1x64_S64x1_1_0 : S1x64.Transposes [1, 0] S64x1
  reducesTo_S1x64_S1_d1 : S1x64.ReducesTo [1] S1
  shapeCasts_S1_S1x1 : S1.ShapeCasts S1x1
  inb_S2048x784_S2048x784_0_0 : ∀ a, (![0, 0] : Fin 2 → Nat) a + S2048x784.size a ≤ S2048x784.size a
  h_S2048x784 : 0 < S2048x784.numel
  reduces_S2048x784_S2048 : S2048x784.Reduces [1] S2048
  shapeCasts_S2048_S2048x1 : S2048.ShapeCasts S2048x1
  inb_S784x64_S784x64_0_0 : ∀ a, (![0, 0] : Fin 2 → Nat) a + S784x64.size a ≤ S784x64.size a
  h_S784x64 : 0 < S784x64.numel
  shapeCasts_S784x64_S784x64 : S784x64.ShapeCasts S784x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2048x1_S2048x64 : S2048x1.Broadcasts S2048x64
  broadcasts_S1x64_S2048x64 : S1x64.Broadcasts S2048x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S2048x64_S2048 : S2048x64.Reduces [1] S2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x784_S784x64_S2048x64_1_0_0_1_n_n_wf : DotDims.WF S2048x784 S784x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x64.size a ≤ S784x64.size a
  hwx0_1 : ∀ i : grid0.Coords, EltTy.bits .bf16 = 32 ∨ (Rect.block (s := S784x64) S784x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .bf16 = 32 ∨ (Rect.block (s := S64x1) S64x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S65536x1.size a
  hwx0_5 : ∀ i : grid0.Coords, EltTy.bits .f32 = 32 ∨ (Rect.block (s := S65536x1) S2048x1.size (cc0_transform_5 i) (hinb0_5 i)).WholeWords (EltTy.packing .f32)

variable [Facts₀]

def dot_S2048x784_S784x64_S2048x64_1_0_0_1_n_n : DotDims S2048x784 S784x64 S2048x64 where
  lhsContracting := [1]
  rhsContracting := [0]
  lhsNonContracting := [0]
  rhsNonContracting := [1]
  lhsBatch := []
  rhsBatch := []
  wf := dot_S2048x784_S784x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S64x784 : Shape := ⟨2, ![64, 784]⟩
abbrev S1x64 : Shape := ⟨2, ![1, 64]⟩
abbrev S_ : Shape := ⟨0, ![]⟩
abbrev S65536 : Shape := ⟨1, ![65536]⟩
abbrev S65536x1 : Shape := ⟨2, ![65536, 1]⟩
abbrev S64 : Shape := ⟨1, ![64]⟩
abbrev S65536x64 : Shape := ⟨2, ![65536, 64]⟩
abbrev S784x64 : Shape := ⟨2, ![784, 64]⟩
abbrev S1 : Shape := ⟨1, ![1]⟩
abbrev S1x1 : Shape := ⟨2, ![1, 1]⟩
abbrev S64x1 : Shape := ⟨2, ![64, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S64x784, .f32⟩
  | .hbm, ⟨2, _⟩ => ⟨S1x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S64, .f32⟩
  | .hbm, ⟨8, _⟩ => ⟨S1x64, .f32⟩
  | .hbm, ⟨9, _⟩ => ⟨S65536x64, .f32⟩
  | .hbm, ⟨10, _⟩ => ⟨S65536x64, .f32⟩
  | .hbm, ⟨11, _⟩ => ⟨S65536x64, .f32⟩
  | .hbm, ⟨12, _⟩ => ⟨S784x64, .f32⟩
  | .hbm, ⟨13, _⟩ => ⟨S65536x64, .f32⟩
  | .hbm, ⟨14, _⟩ => ⟨S_, .f32⟩
  | .hbm, ⟨15, _⟩ => ⟨S65536x64, .f32⟩
  | .hbm, ⟨16, _⟩ => ⟨S65536x64, .f32⟩
  | .hbm, ⟨17, _⟩ => ⟨S65536x64, .f32⟩
  | .hbm, ⟨18, _⟩ => ⟨S_, .f32⟩
  | .hbm, ⟨19, _⟩ => ⟨S65536x64, .f32⟩
  | .hbm, ⟨20, _⟩ => ⟨S65536x64, .f32⟩
  | .hbm, ⟨21, _⟩ => ⟨S_, .f32⟩
  | .hbm, ⟨22, _⟩ => ⟨S65536x64, .f32⟩
  | .hbm, ⟨23, _⟩ => ⟨S65536x64, .f32⟩
  | .hbm, ⟨24, _⟩ => ⟨S_, .f32⟩
  | .hbm, ⟨25, _⟩ => ⟨S65536x64, .f32⟩
  | .hbm, ⟨26, _⟩ => ⟨S65536x64, .f32⟩
  | .hbm, ⟨27, _⟩ => ⟨S65536x64, .f32⟩
  | .hbm, ⟨28, _⟩ => ⟨S65536x64, .f32⟩
  | .hbm, ⟨29, _⟩ => ⟨S_, .f32⟩
  | .hbm, ⟨30, _⟩ => ⟨S65536x64, .f32⟩
  | .hbm, ⟨31, _⟩ => ⟨S65536x64, .f32⟩
  | .hbm, ⟨32, _⟩ => ⟨S_, .f32⟩
  | .hbm, ⟨33, _⟩ => ⟨S65536x64, .f32⟩
  | .hbm, ⟨34, _⟩ => ⟨S65536x64, .f32⟩
  | .hbm, ⟨35, _⟩ => ⟨S_, .f32⟩
  | .hbm, ⟨36, _⟩ => ⟨S65536x64, .f32⟩
  | .hbm, ⟨37, _⟩ => ⟨S65536x64, .i1⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S1, .f32⟩
  | .hbm, ⟨46, _⟩ => ⟨S1x1, .f32⟩
  | .hbm, ⟨47, _⟩ => ⟨S65536x1, .f32⟩
  | .hbm, ⟨48, _⟩ => ⟨S65536x1, .f32⟩
  | .hbm, ⟨49, _⟩ => ⟨S64x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .i1⟩
  | .hbm, ⟨75, _⟩ => ⟨S65536x1, .f32⟩
  | .hbm, ⟨76, _⟩ => ⟨S65536x1, .f32⟩
  | .hbm, ⟨77, _⟩ => ⟨S65536x1, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  reducesTo_S65536x784_S65536_d1 : S65536x784.ReducesTo [1] S65536
  h_S_ : 0 < S_.numel
  bcast_S65536_S65536x1_0 : S65536.BroadcastsInDim S65536x1 (![0] : Fin 1 → Fin S65536x1.rank)
  reducesTo_S64x784_S64_d1 : S64x784.ReducesTo [1] S64
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  transposes_S64x784_S784x64_1_0 : S64x784.Transposes [1, 0] S784x64
  bcast_S_S65536x64 : S_.BroadcastsInDim S65536x64 (![] : Fin 0 → Fin S65536x64.rank)
  reducesTo_S65536x64_S65536_d1 : S65536x64.ReducesTo [1] S65536
  reducesTo_S1x64_S1_d1 : S1x64.ReducesTo [1] S1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  transposes_S1x64_S64x1_1_0 : S1x64.Transposes [1, 0] S64x1
  bcast_S_S65536x1 : S_.BroadcastsInDim S65536x1 (![] : Fin 0 → Fin S65536x1.rank)
  dot_S65536x784_S784x64_S65536x64_1_0_0_1_n_n_wf : DotDims.WF S65536x784 S784x64 S65536x64 [1] [0] [0] [1] [] []
  dot_S65536x64_S64x1_S65536x1_1_0_0_1_n_n_wf : DotDims.WF S65536x64 S64x1 S65536x1 [1] [0] [0] [1] [] []

variable [Facts₀]

def dot_S65536x784_S784x64_S65536x64_1_0_0_1_n_n : DotDims S65536x784 S784x64 S65536x64 where
  lhsContracting := [1]
  rhsContracting := [0]
  lhsNonContracting := [0]
  rhsNonContracting := [1]
  lhsBatch := []
  rhsBatch := []
  wf := dot_S65536x784_S784x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.XorNet.lean ====
/-
  The function both programs compute, on the extended reals.

  A "soft XOR" layer of fan-in n sends an input row a and a weight row w to
      lin = (Σ_k a_k + Σ_k w_k) − 2 · Σ_k a_k · w_k
  (the sum over k of a_k + w_k − 2 a_k w_k, the XOR of soft booleans), and a majority threshold with a
  straight-through surrogate sends s = lin to
      ste s = σ + (𝟙[s > n/2] − σ),    σ = 1 / (1 + exp (−10 · (s · (1/n) − 1/2))).
  The network is two such layers, 784 → 64 and 64 → 1, applied to each of the 65536 rows of x.

  One program spells −z as 0 − z, s / n as s · (1/n) and the indicator as the signed reading of the one-bit
  comparison widened to 32 bits; the other spells them −z, s / n and the unsigned reading of the bit. On the
  extended reals these are the same numbers for EVERY s, the infinities included: 0 − z = −z, a quotient by a
  nonzero real is the product with its reciprocal, and a bit widened by zeros is nonnegative. So no
  finiteness of the inputs is used anywhere. The float literals stay the words they are printed as; only the
  zero, 784, 64 and 1/64 are read as the reals they denote.
-/
import Idealize.ShloMosaic.PureOps.Ideal
import Idealize.ShloMosaic.PureOps.Ideal.Laws
import Idealize.ShloMosaic.Lib.ValueIdx

noncomputable section

open scoped BigOperators

namespace Cert.XorNet

open Idealize.ShloMosaic Idealize.ShloMosaic.ValueIdx

/-! ## The threshold unit -/

/-- The logistic surrogate of slope 10 around one half: `1 / (1 + exp (−10 (s·inv − 1/2)))`. -/
def soft (inv s : EReal) : EReal :=
  Ideal.div (Ideal.ofBits .f32 0x3F800000#32)
    (Ideal.ofBits .f32 0x3F800000#32
      + Ideal.exp (-(Ideal.ofBits .f32 0x41200000#32 * (s * inv - Ideal.ofBits .f32 0x3F000000#32))))

/-- The straight-through threshold: the surrogate plus (the indicator of `s > thr` minus the surrogate). -/
def ste (inv thr s : EReal) : EReal :=
  soft inv s + ((((Ideal.cmp .ogt s thr).toNat : ℝ) : EReal) - soft inv s)

/-- The soft-XOR pre-activation from the two plain sums and the inner product. -/
def lin (sa sw dot : EReal) : EReal := (sa + sw) - Ideal.ofBits .f32 0x40000000#32 * dot

/-- A bit widened by zeros to 32 bits reads the same signed as the bit reads unsigned. -/
theorem toInt_setWidth_bit (b : BitVec 1) : (((b.setWidth 32).toInt : ℝ) : EReal) = ((b.toNat : ℝ) : EReal) := by
  have h : ∀ b : BitVec 1, (b.setWidth 32).toInt = (b.toNat : ℤ) := by decide
  rw [h b]; norm_cast

/-- The unit as spelt with `0 − z` for the negation and the widened bit read signed. -/
theorem ste_zero_sub (inv thr s : EReal) :
    Ideal.div (Ideal.ofBits .f32 0x3F800000#32)
        (Ideal.ofBits .f32 0x3F800000#32
          + Ideal.exp (Ideal.ofBits .f32 0x00000000#32 - Ideal.ofBits .f32 0x41200000#32 * (s * inv - Ideal.ofBits .f32 0x3F000000#32)))
      + (((((Ideal.cmp .ogt s thr).setWidth 32).toInt : ℝ) : EReal)
          - Ideal.div (Ideal.ofBits .f32 0x3F800000#32)
              (Ideal.ofBits .f32 0x3F800000#32
                + Ideal.exp (Ideal.ofBits .f32 0x00000000#32 - Ideal.ofBits .f32 0x41200000#32 * (s * inv - Ideal.ofBits .f32 0x3F000000#32))))
      = ste inv thr s := by
  unfold ste soft
  rw [Ideal.ofBits_zero_f32, zero_sub, toInt_setWidth_bit]

/-- The unit as spelt with a quotient by `n`, where dividing by `n` is multiplying by `inv`. -/
theorem ste_div {n inv : EReal} (hn : ∀ s : EReal, Ideal.div s n = s * inv) (thr s : EReal) :
    Ideal.div (Ideal.ofBits .f32 0x3F800000#32)
        (Ideal.ofBits .f32 0x3F800000#32
          + Ideal.exp (-(Ideal.ofBits .f32 0x41200000#32 * (Ideal.div s n - Ideal.ofBits .f32 0x3F000000#32))))
      + ((((Ideal.cmp .ogt s thr).toNat : ℝ) : EReal)
          - Ideal.div (Ideal.ofBits .f32 0x3F800000#32)
              (Ideal.ofBits .f32 0x3F800000#32
                + Ideal.exp (-(Ideal.ofBits .f32 0x41200000#32 * (Ideal.div s n - Ideal.ofBits .f32 0x3F000000#32)))))
      = ste inv thr s := by
  unfold ste soft
  rw [hn]

/-! ## The two fan-ins as reals -/

theorem ofBits_784 : Ideal.ofBits .f32 0x44440000#32 = ((784 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

/-- A quotient by 784.0 is the product with the real 1/784, on every extended real. -/
theorem div_784 (s : EReal) : Ideal.div s (Ideal.ofBits .f32 0x44440000#32) = s * ((1 / 784 : ℝ) : EReal) := by
  rw [ofBits_784, Ideal.div_coe (by norm_num)]

/-- A quotient by 64.0 is the product with the literal 0.015625, on every extended real. -/
theorem div_64 (s : EReal) : Ideal.div s (Ideal.ofBits .f32 0x42800000#32) = s * Ideal.ofBits .f32 0x3C800000#32 := by
  rw [ofBits_64, ofBits_inv64, Ideal.div_coe (by norm_num)]

/-! ## The network -/

/-- Hidden unit `j` of row `b`: the 784-fan-in soft XOR of the row with weight row `j`, thresholded at 392. -/
def hidden (x : (⟨2, ![65536, 784]⟩ : Shape).Idx → EReal) (w1 : (⟨2, ![64, 784]⟩ : Shape).Idx → EReal)
    (b : Fin 65536) (j : Fin 64) : EReal :=
  ste ((1 / 784 : ℝ) : EReal) (Ideal.ofBits .f32 0x43C40000#32)
    (lin (∑ k : Fin 784, x (ix2 b k)) (∑ k : Fin 784, w1 (ix2 j k)) (∑ k : Fin 784, x (ix2 b k) * w1 (ix2 j k)))

/-- The output of row `b`: the 64-fan-in soft XOR of the hidden row with the one weight row, thresholded at 32. -/
def outRow (x : (⟨2, ![65536, 784]⟩ : Shape).Idx → EReal) (w1 : (⟨2, ![64, 784]⟩ : Shape).Idx → EReal)
    (w2 : (⟨2, ![1, 64]⟩ : Shape).Idx → EReal) (b : Fin 65536) : EReal :=
  ste (Ideal.ofBits .f32 0x3C800000#32) (Ideal.ofBits .f32 0x42000000#32)
    (lin (∑ j : Fin 64, hidden x w1 b j) (∑ j : Fin 64, w2 (ix2 (0 : Fin 1) j))
      (∑ j : Fin 64, hidden x w1 b j * w2 (ix2 (0 : Fin 1) j)))

/-- The whole result array, index by index. -/
def net (x : (⟨2, ![65536, 784]⟩ : Shape).Idx → EReal) (w1 : (⟨2, ![64, 784]⟩ : Shape).Idx → EReal)
    (w2 : (⟨2, ![1, 64]⟩ : Shape).Idx → EReal) : (⟨2, ![65536, 1]⟩ : Shape).Idx → EReal :=
  fun i => outRow x w1 w2 ⟨(i 0).val, idx2_lt0 i⟩

end Cert.XorNet

end
-- ==== Proof.BlockValue.lean ====
/-
  What the kernel body leaves in one row of its output block, as a function of the blocks it loads.

  The body loads a [2048, 784] block of x (`P0`), the transposed first weights [784, 64] (`P1`), the row sums of the
  first weights [1, 64] (`P2`), the transposed second weights [64, 1] (`P4`) and their sum [1, 1] (`P3`). Row r of
  the [2048, 1] result depends on row r of `P0` only: hidden unit j is the threshold unit of the soft-XOR
  pre-activation  (Σ_k P0[r,k] + P2[0,j]) − 2 Σ_k P0[r,k] · P1[k,j],  and the output is the threshold unit of
  (Σ_j h_j + P3[0,0]) − 2 Σ_j h_j · P4[j,0].  A row sum of the block is a sum over the row's 784 (or 64) entries and a
  matrix product into a zero accumulator is the sum over the contracted coordinate; the changes of float format
  are the identity on the extended reals.
-/
import proofs.«146563_j8486855377349_1_alg».proof.Proof.Gen.KernelIdeal.Skeleton
import proofs.«146563_j8486855377349_1_alg».proof.Proof.XorNet
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.BlockValue

open Cert.KernelIdeal Cert.KernelIdeal.Gen Idealize.ShloMosaic Idealize.ShloMosaic.ValueIdx Cert.XorNet

/-! ## The threshold unit on a whole vector -/

/-- The straight-through threshold applied entrywise to a vector of pre-activations, as the body spells it. -/
def steVec {S : Shape} (A : FVec Ideal S .f32) (inv : Ideal .f32) (thr : BitVec 32) : FVec Ideal S .f32 :=
  addf
    (divf (broadcast S (Scalar.ofBits .f32 0x3F800000#32))
      (addf (broadcast S (Scalar.ofBits .f32 0x3F800000#32))
        (exp (subf (broadcast S (Scalar.ofBits .f32 0x00000000#32))
          (mulf (broadcast S (Scalar.ofBits .f32 0x41200000#32))
            (subf (mulf A (broadcast S inv)) (broadcast S (Scalar.ofBits .f32 0x3F000000#32))))))))
    (subf (sitofp .f32 (extui 32 (cmpf .ogt A (broadcast S (Scalar.ofBits .f32 thr))) (by decide)))
      (divf (broadcast S (Scalar.ofBits .f32 0x3F800000#32))
        (addf (broadcast S (Scalar.ofBits .f32 0x3F800000#32))
          (exp (subf (broadcast S (Scalar.ofBits .f32 0x00000000#32))
            (mulf (broadcast S (Scalar.ofBits .f32 0x41200000#32))
              (subf (mulf A (broadcast S inv)) (broadcast S (Scalar.ofBits .f32 0x3F000000#32)))))))))

/-- Entry by entry it is the scalar unit: every operation is pointwise. -/
theorem steVec_apply {S : Shape} (A : FVec Ideal S .f32) (inv : Ideal .f32) (thr : BitVec 32) (i : S.Idx) :
    steVec A inv thr i = ste inv (Ideal.ofBits .f32 thr) (A i) :=
  ste_zero_sub inv (Ideal.ofBits .f32 thr) (A i)

/-! ## The two pre-activations and the payloads over them -/

/-- The first layer's pre-activation on the block: row sums of `P0` and the weights' row sums, each broadcast across
    the block, minus twice the product of `P0` with the transposed weights. -/
def pre1 (P0 : FVec Ideal S2048x784 .f32) (P1 : FVec Ideal S784x64 .bf16) (P2 : FVec Ideal S1x64 .f32) : FVec Ideal S2048x64 .f32 :=
  subf
    (addf
      (broadcastTo S2048x64 (shapeCast S2048x1 (multiReduction .add [1] S2048 P0 0x00000000#32 reduces_S2048x784_S2048 (.inl rfl) rfl) shapeCasts_S2048_S2048x1) broadcasts_S2048x1_S2048x64)
      (broadcastTo S2048x64 (shapeCast S1x64 P2 shapeCasts_S1x64_S1x64) broadcasts_S1x64_S2048x64))
    (mulf (broadcast S2048x64 (Scalar.ofBits .f32 0x40000000#32))
      (matmul dot_S2048x784_S784x64_S2048x64_1_0_0_1_n_n none (truncf .bf16 P0 bitsLt_bf16_f32) (shapeCast S784x64 P1 shapeCasts_S784x64_S784x64) (constant S2048x64 .f32 0x00000000#32)))

/-- The hidden block is the threshold unit of the first pre-activation, the reciprocal of the fan-in being the named 1/784. -/
theorem hidden_block_eq (P0 : FVec Ideal S2048x784 .f32) (P1 : FVec Ideal S784x64 .bf16) (P2 : FVec Ideal S1x64 .f32) :
    k0_pay2 (F := Ideal) P0 P1 P2 = steVec (pre1 P0 P1 P2) (Named.named (F := Ideal) κ "inv_784" (φ := .f32) 0x3AA72F05#32) 0x43C40000#32 := rfl

/-- The second layer's pre-activation from the hidden block's row sums `s`, the second weights' sum `c` and the
    product `d` of the hidden block with the transposed second weights. -/
def pre2 (d : FVec Ideal S2048x1 .f32) (s : FVec Ideal S2048 .f32) (c : FVec Ideal S1x1 .f32) : FVec Ideal S2048x1 .f32 :=
  subf
    (addf (shapeCast S2048x1 s shapeCasts_S2048_S2048x1) (broadcastTo S2048x1 (shapeCast S1x1 c shapeCasts_S1x1_S1x1) broadcasts_S1x1_S2048x1))
    (mulf (broadcast S2048x1 (Scalar.ofBits .f32 0x40000000#32)) d)

/-- The stored block is the threshold unit of the second pre-activation, the reciprocal of the fan-in the literal 1/64. -/
theorem out_block_eq (d : FVec Ideal S2048x1 .f32) (s : FVec Ideal S2048 .f32) (c : FVec Ideal S1x1 .f32) :
    k0_pay1 (F := Ideal) d s c = steVec (pre2 d s c) (Scalar.ofBits .f32 0x3C800000#32) 0x42000000#32 := rfl

/-! ## Sums, products and layout changes read at an index -/

/-- A row sum of a [2048, 784] block is the sum of the row's 784 entries. -/
theorem rowsum784 (A : FVec Ideal S2048x784 .f32) (r : Fin 2048) :
    multiReduction .add [1] S2048 A 0x00000000#32 reduces_S2048x784_S2048 (.inl rfl) rfl (ix1 r) = ∑ k : Fin 784, A (ix2 r k) := by
  refine (Ideal.multiReduction_add_single A 0x00000000#32 reduces_S2048x784_S2048 (.inl rfl) rfl (ix1 r)).trans ?_
  refine Finset.sum_congr rfl fun k _ => ?_
  exact congrArg A (funext fun a => Fin.ext (by match a with | ⟨0, _⟩ => rfl | ⟨1, _⟩ => rfl))

/-- A row sum of a [2048, 64] block is the sum of the row's 64 entries. -/
theorem rowsum64 (A : FVec Ideal S2048x64 .f32) (r : Fin 2048) :
    multiReduction .add [1] S2048 A 0x00000000#32 reduces_S2048x64_S2048 (.inl rfl) rfl (ix1 r) = ∑ j : Fin 64, A (ix2 r j) := by
  refine (Ideal.multiReduction_add_single A 0x00000000#32 reduces_S2048x64_S2048 (.inl rfl) rfl (ix1 r)).trans ?_
  refine Finset.sum_congr rfl fun k _ => ?_
  exact congrArg A (funext fun a => Fin.ext (by match a with | ⟨0, _⟩ => rfl | ⟨1, _⟩ => rfl))

theorem lhs1_0 (i : S2048x64.Idx) (q : dot_S2048x784_S784x64_S2048x64_1_0_0_1_n_n.contr.Idx) :
    (dot_S2048x784_S784x64_S2048x64_1_0_0_1_n_n.lhsIdx i q 0).val = (i 0).val := by
  unfold DotDims.lhsIdx
  rw [dif_neg (show ¬(0 : Fin S2048x784.rank) ∈ dot_S2048x784_S784x64_S2048x64_1_0_0_1_n_n.lhsBatch by decide), dif_pos (show (0 : Fin S2048x784.rank) ∈ dot_S2048x784_S784x64_S2048x64_1_0_0_1_n_n.lhsNonContracting by decide)]
  rfl
theorem lhs1_1 (i : S2048x64.Idx) (q : dot_S2048x784_S784x64_S2048x64_1_0_0_1_n_n.contr.Idx) :
    (dot_S2048x784_S784x64_S2048x64_1_0_0_1_n_n.lhsIdx i q 1).val = (q ⟨0, by decide⟩).val :=
  dot_S2048x784_S784x64_S2048x64_1_0_0_1_n_n.lhsIdx_val_of_single rfl i q
theorem rhs1_0 (i : S2048x64.Idx) (q : dot_S2048x784_S784x64_S2048x64_1_0_0_1_n_n.contr.Idx) :
    (dot_S2048x784_S784x64_S2048x64_1_0_0_1_n_n.rhsIdx i q 0).val = (q ⟨0, by decide⟩).val :=
  dot_S2048x784_S784x64_S2048x64_1_0_0_1_n_n.rhsIdx_val_of_single rfl i q
theorem rhs1_1 (i : S2048x64.Idx) (q : dot_S2048x784_S784x64_S2048x64_1_0_0_1_n_n.contr.Idx) :
    (dot_S2048x784_S784x64_S2048x64_1_0_0_1_n_n.rhsIdx i q 1).val = (i 1).val := by
  unfold DotDims.rhsIdx
  rw [dif_neg (show ¬(1 : Fin S784x64.rank) ∈ dot_S2048x784_S784x64_S2048x64_1_0_0_1_n_n.rhsBatch by decide), dif_pos (show (1 : Fin S784x64.rank) ∈ dot_S2048x784_S784x64_S2048x64_1_0_0_1_n_n.rhsNonContracting by decide)]
  rfl

/-- The [2048, 784] × [784, 64] product into a zero accumulator, at (r, j): the sum over the 784 contracted coordinates. -/
theorem matmul1_apply (A : FVec Ideal S2048x784 .bf16) (B : FVec Ideal S784x64 .bf16) (r : Fin 2048) (j : Fin 64) :
    matmul dot_S2048x784_S784x64_S2048x64_1_0_0_1_n_n none A B (constant (F := Ideal) S2048x64 .f32 0x00000000#32) (ix2 r j)
      = ∑ k : Fin 784, A (ix2 r k) * B (ix2 k j) := by
  simp only [matmul]
  rw [Ideal.matmul_constant_zero_apply, ← Equiv.sum_comp (contrEquiv1 dot_S2048x784_S784x64_S2048x64_1_0_0_1_n_n 784 rfl rfl).symm]
  refine Finset.sum_congr rfl fun k _ => ?_
  have hk := contrEquiv1_symm_val dot_S2048x784_S784x64_S2048x64_1_0_0_1_n_n 784 rfl rfl k
  have el : dot_S2048x784_S784x64_S2048x64_1_0_0_1_n_n.lhsIdx (ix2 r j) ((contrEquiv1 dot_S2048x784_S784x64_S2048x64_1_0_0_1_n_n 784 rfl rfl).symm k) = ix2 r k := funext fun a => Fin.ext (by
    match a with
    | ⟨0, _⟩ => exact lhs1_0 _ _
    | ⟨1, _⟩ => exact (lhs1_1 _ _).trans hk)
  have er : dot_S2048x784_S784x64_S2048x64_1_0_0_1_n_n.rhsIdx (ix2 r j) ((contrEquiv1 dot_S2048x784_S784x64_S2048x64_1_0_0_1_n_n 784 rfl rfl).symm k) = ix2 k j := funext fun a => Fin.ext (by
    match a with
    | ⟨0, _⟩ => exact (rhs1_0 _ _).trans hk
    | ⟨1, _⟩ => exact rhs1_1 _ _)
  rw [el, er]

theorem lhs2_0 (i : S2048x1.Idx) (q : dot_S2048x64_S64x1_S2048x1_1_0_0_1_n_n.contr.Idx) :
    (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
theorem lhs2_1 (i : S2048x1.Idx) (q : dot_S2048x64_S64x1_S2048x1_1_0_0_1_n_n.contr.Idx) :
    (dot_S2048x64_S64x1_S2048x1_1_0_0_1_n_n.lhsIdx i q 1).val = (q ⟨0, by decide⟩).val :=
  dot_S2048x64_S64x1_S2048x1_1_0_0_1_n_n.lhsIdx_val_of_single rfl i q
theorem rhs2_0 (i : S2048x1.Idx) (q : dot_S2048x64_S64x1_S2048x1_1_0_0_1_n_n.contr.Idx) :
    (dot_S2048x64_S64x1_S2048x1_1_0_0_1_n_n.rhsIdx i q 0).val = (q ⟨0, by decide⟩).val :=
  dot_S2048x64_S64x1_S2048x1_1_0_0_1_n_n.rhsIdx_val_of_single rfl i q
theorem rhs2_1 (i : S2048x1.Idx) (q : dot_S2048x64_S64x1_S2048x1_1_0_0_1_n_n.contr.Idx) :
    (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl

/-- The [2048, 64] × [64, 1] product into a zero accumulator, at (r, 0): the sum over the 64 contracted coordinates. -/
theorem matmul2_apply (A : FVec Ideal S2048x64 .bf16) (B : FVec Ideal S64x1 .bf16) (r : Fin 2048) :
    matmul dot_S2048x64_S64x1_S2048x1_1_0_0_1_n_n none A B (constant (F := Ideal) S2048x1 .f32 0x00000000#32) (ix2 r (0 : Fin 1))
      = ∑ j : Fin 64, A (ix2 r j) * B (ix2 j (0 : Fin 1)) := by
  simp only [matmul]
  rw [Ideal.matmul_constant_zero_apply, ← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have el : dot_S2048x64_S64x1_S2048x1_1_0_0_1_n_n.lhsIdx (ix2 r (0 : Fin 1)) ((contrEquiv1 dot_S2048x64_S64x1_S2048x1_1_0_0_1_n_n 64 rfl rfl).symm k) = ix2 r k := funext fun a => Fin.ext (by
    match a with
    | ⟨0, _⟩ => exact lhs2_0 _ _
    | ⟨1, _⟩ => exact (lhs2_1 _ _).trans hk)
  have er : dot_S2048x64_S64x1_S2048x1_1_0_0_1_n_n.rhsIdx (ix2 r (0 : Fin 1)) ((contrEquiv1 dot_S2048x64_S64x1_S2048x1_1_0_0_1_n_n 64 rfl rfl).symm k) = ix2 k (0 : Fin 1) := funext fun a => Fin.ext (by
    match a with
    | ⟨0, _⟩ => exact (rhs2_0 _ _).trans hk
    | ⟨1, _⟩ => exact rhs2_1 _ _)
  rw [el, er]

/-- A vector of 2048 row values laid out as a column reads its row's value. -/
theorem col_of_vec (v : FVec Ideal S2048 .f32) (r : Fin 2048) :
    shapeCast S2048x1 v shapeCasts_S2048_S2048x1 (ix2 r (0 : Fin 1)) = v (ix1 r) :=
  shapeCast_apply _ _ (ix2 r (0 : Fin 1)) (ix1 r) (by rw [Shape.rowMajor_val_one, Shape.rowMajor_val_two]; show r.val = r.val * 1 + 0; omega)

/-- That column spread across 64 columns reads its row's value at every column. -/
theorem spread_col (v : FVec Ideal S2048 .f32) (r : Fin 2048) (j : Fin 64) :
    broadcastTo S2048x64 (shapeCast S2048x1 v shapeCasts_S2048_S2048x1) broadcasts_S2048x1_S2048x64 (ix2 r j) = v (ix1 r) := by
  refine (broadcastTo_apply _ _ (ix2 r j) (ix2 r (0 : Fin 1)) (fun a => by
    match a with
    | ⟨0, _⟩ => show r.val = (if (2048 : Nat) = 1 then 0 else r.val); rw [if_neg (by decide)]
    | ⟨1, _⟩ => show 0 = (if (1 : Nat) = 1 then 0 else j.val); rw [if_pos rfl])).trans ?_
  exact col_of_vec v r

/-- A [1, 64] row spread down 2048 rows reads its column's entry at every row. -/
theorem spread_row (v : FVec Ideal S1x64 .f32) (r : Fin 2048) (j : Fin 64) :
    broadcastTo S2048x64 (shapeCast S1x64 v shapeCasts_S1x64_S1x64) broadcasts_S1x64_S2048x64 (ix2 r j) = v (ix2 (0 : Fin 1) j) := by
  rw [shapeCast_self]
  exact broadcastTo_apply _ _ (ix2 r j) (ix2 (0 : Fin 1) j) (fun a => by
    match a with
    | ⟨0, _⟩ => show 0 = (if (1 : Nat) = 1 then 0 else r.val); rw [if_pos rfl]
    | ⟨1, _⟩ => show j.val = (if (64 : Nat) = 1 then 0 else j.val); rw [if_neg (by decide)])

/-- A [1, 1] value spread down 2048 rows reads that value at every row. -/
theorem spread_one (c : FVec Ideal S1x1 .f32) (r : Fin 2048) :
    broadcastTo S2048x1 (shapeCast S1x1 c shapeCasts_S1x1_S1x1) broadcasts_S1x1_S2048x1 (ix2 r (0 : Fin 1)) = c (ix2 (0 : Fin 1) (0 : Fin 1)) := by
  rw [shapeCast_self]
  exact broadcastTo_apply _ _ (ix2 r (0 : Fin 1)) (ix2 (0 : Fin 1) (0 : Fin 1)) (fun a => by
    match a with
    | ⟨0, _⟩ => show 0 = (if (1 : Nat) = 1 then 0 else r.val); rw [if_pos rfl]
    | ⟨1, _⟩ => show 0 = (if (1 : Nat) = 1 then 0 else 0); rw [if_pos rfl])

/-! ## One row of the block -/

/-- The first pre-activation at (r, j): row r of `P0` against column j of `P1`, with the weights' row sum `P2[0, j]`. -/
theorem pre1_apply (P0 : FVec Ideal S2048x784 .f32) (P1 : FVec Ideal S784x64 .bf16) (P2 : FVec Ideal S1x64 .f32) (r : Fin 2048) (j : Fin 64) :
    pre1 P0 P1 P2 (ix2 r j)
      = lin (∑ k : Fin 784, P0 (ix2 r k)) (P2 (ix2 (0 : Fin 1) j)) (∑ k : Fin 784, P0 (ix2 r k) * P1 (ix2 k j)) := by
  unfold pre1 lin
  rw [subf_apply, addf_apply, mulf_apply, broadcast_apply, spread_col, spread_row, rowsum784, matmul1_apply, shapeCast_self]
  rfl

/-- The named reciprocal of the first fan-in denotes the rational 1/784, by the certificate's table. -/
theorem inv_784 : Named.named (F := Ideal) κ "inv_784" (φ := .f32) 0x3AA72F05#32 = ((1 / 784 : ℝ) : EReal) :=
  IdealRules.named_const.ideal_named_scalar _ _ _ _ rfl

/-- Hidden unit j of block row r, from the blocks. -/
def hid (P0 : FVec Ideal S2048x784 .f32) (P1 : FVec Ideal S784x64 .bf16) (P2 : FVec Ideal S1x64 .f32) (r : Fin 2048) (j : Fin 64) : EReal :=
  ste ((1 / 784 : ℝ) : EReal) (Ideal.ofBits .f32 0x43C40000#32)
    (lin (∑ k : Fin 784, P0 (ix2 r k)) (P2 (ix2 (0 : Fin 1) j)) (∑ k : Fin 784, P0 (ix2 r k) * P1 (ix2 k j)))

theorem hidden_block_apply (P0 : FVec Ideal S2048x784 .f32) (P1 : FVec Ideal S784x64 .bf16) (P2 : FVec Ideal S1x64 .f32) (r : Fin 2048) (j : Fin 64) :
    k0_pay2 (F := Ideal) P0 P1 P2 (ix2 r j) = hid P0 P1 P2 r j := by
  rw [hidden_block_eq, steVec_apply, pre1_apply, inv_784]
  rfl

/-- The second pre-activation at row r. -/
theorem pre2_apply (d : FVec Ideal S2048x1 .f32) (s : FVec Ideal S2048 .f32) (c : FVec Ideal S1x1 .f32) (r : Fin 2048) :
    pre2 d s c (ix2 r (0 : Fin 1)) = lin (s (ix1 r)) (c (ix2 (0 : Fin 1) (0 : Fin 1))) (d (ix2 r (0 : Fin 1))) := by
  unfold pre2 lin
  rw [subf_apply, addf_apply, mulf_apply, broadcast_apply, col_of_vec, spread_one]
  rfl

/-- ROW r OF THE STORED BLOCK: the threshold unit, at fan-in 64, of the soft XOR of the row's 64 hidden units with
    the second weights `P4[·, 0]`, their sum being `P3[0, 0]`. -/
theorem out_block_apply (P0 : FVec Ideal S2048x784 .f32) (P1 : FVec Ideal S784x64 .bf16) (P2 : FVec Ideal S1x64 .f32)
    (P3 : FVec Ideal S1x1 .f32) (P4 : FVec Ideal S64x1 .bf16) (r : Fin 2048) :
    k0_pay1 (F := Ideal) (k0_pay3 P0 P1 P2 P4) (k0_pay4 P0 P1 P2) P3 (ix2 r (0 : Fin 1))
      = ste (Ideal.ofBits .f32 0x3C800000#32) (Ideal.ofBits .f32 0x42000000#32)
          (lin (∑ j : Fin 64, hid P0 P1 P2 r j) (P3 (ix2 (0 : Fin 1) (0 : Fin 1)))
            (∑ j : Fin 64, hid P0 P1 P2 r j * P4 (ix2 j (0 : Fin 1)))) := by
  have h4 : k0_pay4 (F := Ideal) P0 P1 P2 (ix1 r) = ∑ j : Fin 64, hid P0 P1 P2 r j :=
    (rowsum64 (k0_pay2 (F := Ideal) P0 P1 P2) r).trans (Finset.sum_congr rfl fun j _ => hidden_block_apply P0 P1 P2 r j)
  have h3 : k0_pay3 (F := Ideal) P0 P1 P2 P4 (ix2 r (0 : Fin 1)) = ∑ j : Fin 64, hid P0 P1 P2 r j * P4 (ix2 j (0 : Fin 1)) := by
    refine (matmul2_apply (truncf .bf16 (k0_pay2 (F := Ideal) P0 P1 P2) bitsLt_bf16_f32) (shapeCast S64x1 P4 shapeCasts_S64x1_S64x1) r).trans ?_
    rw [shapeCast_self]
    exact Finset.sum_congr rfl fun j _ => congrArg (· * P4 (ix2 j (0 : Fin 1))) (hidden_block_apply P0 P1 P2 r j)
  rw [out_block_eq, steVec_apply, pre2_apply, h4, h3]
  rfl

end Cert.KernelIdeal.BlockValue

end
-- ==== Proof.KernelIsNet.lean ====
/-
  The kernel's result array is the two-layer soft-XOR network of the argument arrays.

  The launch runs the body at 32 grid points; point t stages rows 2048·t … 2048·t + 2047 of x, and the whole of the
  four small arrays the host computes first: the first weights transposed, their 64 row sums, the second weights
  transposed, and their one sum. Row r of what point t writes back is therefore the network's output for row
  2048·t + r of x (the block-level reading, with each block entry read off its array), and the 32 blocks tile the
  [65536, 1] result, so the array after the run is the network everywhere.
-/
import proofs.«146563_j8486855377349_1_alg».proof.Proof.KernelIdealValue
import proofs.«146563_j8486855377349_1_alg».proof.Proof.BlockValue
import Idealize.ShloMosaic.Lib.StableHlo.Run

set_option maxRecDepth 16384

noncomputable section

open scoped BigOperators

namespace Cert.KernelIdeal.ArrayValue

open Cert.KernelIdeal Cert.KernelIdeal.Gen Cert.KernelIdeal.BlockValue Idealize.ShloMosaic Idealize.ShloMosaic.TcCoe
open Idealize.SL.Sem Idealize.ShloMosaic.ValueIdx Cert.XorNet Idealize.ShloMosaic.StableHlo
open Idealize.ShloMosaic.Pipeline (Dat)

variable (m : (ℓ : Loc nD τ sig) → Buf (Elt Ideal) ℓ) (ρ : Dev nD → PrngReg)

/-! ## The arrays the region finds -/

/-- The three argument arrays on core `c`. -/
abbrev X (c : Dev nD) : FVec Ideal S65536x784 .f32 := m ((c : Thread nD τ).loc main_arg0)
abbrev W1 (c : Dev nD) : FVec Ideal S64x784 .f32 := m ((c : Thread nD τ).loc main_arg1)
abbrev W2 (c : Dev nD) : FVec Ideal S1x64 .f32 := m ((c : Thread nD τ).loc main_arg2)

/-- The first weights, transposed (the change of format is the identity). -/
theorem w1t_eq (c : Dev nD) : (V m c main_v1 : S784x64.Idx → EReal)
    = truncf (F := Ideal) .bf16 (transpose S784x64 [1, 0] (W1 m c) transposes_S64x784_S784x64_1_0) bitsLt_bf16_f32 := by
  dsimp only [Gen.V, Gen.hostOps0]; after_results <;> rfl

/-- The first weights' row sums, laid out as a [1, 64] row. -/
theorem sw1_eq (c : Dev nD) : (V m c main_v3 : S1x64.Idx → EReal)
    = shapeCast S1x64 (Host.reduceAdd (F := Ideal) (W1 m c) (constant (F := Ideal) S_ .f32 0x00000000#32) reducesTo_S64x784_S64_d1 h_S_) shapeCasts_S64_S1x64 := by
  dsimp only [Gen.V, Gen.hostOps0]; after_results <;> rfl

/-- The second weights, transposed. -/
theorem w2t_eq (c : Dev nD) : (V m c main_v5 : S64x1.Idx → EReal)
    = truncf (F := Ideal) .bf16 (transpose S64x1 [1, 0] (W2 m c) transposes_S1x64_S64x1_1_0) bitsLt_bf16_f32 := by
  dsimp only [Gen.V, Gen.hostOps0]; after_results <;> rfl

/-- The second weights' sum, laid out as a [1, 1] array. -/
theorem sw2_eq (c : Dev nD) : (V m c main_v7 : S1x1.Idx → EReal)
    = shapeCast S1x1 (Host.reduceAdd (F := Ideal) (W2 m c) (constant (F := Ideal) S_ .f32 0x00000000#32) reducesTo_S1x64_S1_d1 h_S_) shapeCasts_S1_S1x1 := by
  dsimp only [Gen.V, Gen.hostOps0]; after_results <;> rfl

/-! ## Those arrays at an index -/

theorem w1t_at (c : Dev nD) (k : Fin 784) (j : Fin 64) : V m c main_v1 (ix2 k j) = W1 m c (ix2 j k) := by
  rw [w1t_eq]
  exact transpose_apply [1, 0] (W1 m c) transposes_S64x784_S784x64_1_0 (ix2 k j) (ix2 j k) (fun b => match b with
    | ⟨0, _⟩ => rfl
    | ⟨1, _⟩ => rfl)

theorem w2t_at (c : Dev nD) (j : Fin 64) : V m c main_v5 (ix2 j (0 : Fin 1)) = W2 m c (ix2 (0 : Fin 1) j) := by
  rw [w2t_eq]
  exact transpose_apply [1, 0] (W2 m c) transposes_S1x64_S64x1_1_0 (ix2 j (0 : Fin 1)) (ix2 (0 : Fin 1) j) (fun b => match b with
    | ⟨0, _⟩ => rfl
    | ⟨1, _⟩ => rfl)

/-- A host row sum from the literal zero is the sum of the row's entries: zero is the additive identity. -/
theorem sw1_at (c : Dev nD) (j : Fin 64) : V m c main_v3 (ix2 (0 : Fin 1) j) = ∑ k : Fin 784, W1 m c (ix2 j k) := by
  rw [sw1_eq]
  refine (shapeCast_apply _ _ (ix2 (0 : Fin 1) j) (ix1 j) (by rw [Shape.rowMajor_val_one, Shape.rowMajor_val_two]; show j.val = 0 * 64 + j.val; omega)).trans ?_
  simp only [Host.reduceAdd, Ideal.hostReduceAdd_def]
  rw [Ideal.hostReduceAdd_single reducesTo_S64x784_S64_d1 (by decide)]
  show Ideal.ofBits .f32 0x00000000#32 + _ = _
  rw [Ideal.ofBits_zero_f32, zero_add]
  refine Finset.sum_congr rfl fun k _ => ?_
  exact congrArg (W1 m c) (funext fun a => Fin.ext (by match a with | ⟨0, _⟩ => rfl | ⟨1, _⟩ => rfl))

theorem sw2_at (c : Dev nD) : V m c main_v7 (ix2 (0 : Fin 1) (0 : Fin 1)) = ∑ j : Fin 64, W2 m c (ix2 (0 : Fin 1) j) := by
  rw [sw2_eq]
  refine (shapeCast_apply _ _ (ix2 (0 : Fin 1) (0 : Fin 1)) (ix1 (0 : Fin 1)) (by rw [Shape.rowMajor_val_one, Shape.rowMajor_val_two]; show 0 = 0 * 1 + 0; omega)).trans ?_
  simp only [Host.reduceAdd, Ideal.hostReduceAdd_def]
  rw [Ideal.hostReduceAdd_single reducesTo_S1x64_S1_d1 (by decide)]
  show Ideal.ofBits .f32 0x00000000#32 + _ = _
  rw [Ideal.ofBits_zero_f32, zero_add]
  refine Finset.sum_congr rfl fun k _ => ?_
  exact congrArg (W2 m c) (funext fun a => Fin.ext (by match a with | ⟨0, _⟩ => rfl | ⟨1, _⟩ => rfl))

/-! ## The blocks a point stages -/

theorem hz : (![0, 0] : Fin 2 → Nat) = fun _ => 0 := funext fun a => by fin_cases a <;> rfl

/-- The printed index maps, decided over the 32 points: the x window and the result window move down one block a
    point, and the four small windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five input blocks at point `t`, at their literal shapes. -/
abbrev xblk (c : Dev nD) (t : Fin cfg0.N) : FVec Ideal S2048x784 .f32 := iblk m c 0 t
abbrev w1tblk (c : Dev nD) (t : Fin cfg0.N) : FVec Ideal S784x64 .bf16 := iblk m c 1 t
abbrev sw1blk (c : Dev nD) (t : Fin cfg0.N) : FVec Ideal S1x64 .f32 := iblk m c 2 t
abbrev w2tblk (c : Dev nD) (t : Fin cfg0.N) : FVec Ideal S64x1 .bf16 := iblk m c 3 t
abbrev sw2blk (c : Dev nD) (t : Fin cfg0.N) : FVec Ideal S1x1 .f32 := iblk m c 4 t

/-- Row r of the x block at point t is row 2048·t + r of x. -/
theorem xblk_at (c : Dev nD) (t : Fin cfg0.N) (r : Fin 2048) (b : Fin 65536) (hb : b.val = t.val * 2048 + r.val) (k : Fin 784) :
    xblk m c t (ix2 r k) = X m c (ix2 b k) := by
  obtain ⟨e0, e1, -⟩ := idx_facts t
  show V m c main_arg0 (((cfg0.win 0).blk t).view.emb (ix2 r k)) = X m c (ix2 b k)
  rw [V_main_arg0]
  have h : ((cfg0.win 0).blk t).view.emb (ix2 r k) = ix2 b k := funext fun a => Fin.ext (by
    match a with
    | ⟨0, _⟩ => show win0_0.index t (0 : Fin 2) * 2048 + 1 * r.val = b.val; omega
    | ⟨1, _⟩ => show win0_0.index t (1 : Fin 2) * 784 + 1 * k.val = k.val; omega)
  rw [h]

theorem w1tblk_at (c : Dev nD) (t : Fin cfg0.N) (k : Fin 784) (j : Fin 64) : w1tblk m c t (ix2 k j) = W1 m c (ix2 j k) := by
  obtain ⟨-, -, e0, e1, -⟩ := idx_facts t
  refine Eq.trans ?_ (w1t_at m c k j)
  show V m c main_v1 (((cfg0.win 1).blk t).view.emb (ix2 k j)) = V m c main_v1 (ix2 k j)
  have h : ((cfg0.win 1).blk t).view.emb (ix2 k j) = ix2 k j := funext fun a => Fin.ext (by
    match a with
    | ⟨0, _⟩ => show win0_1.index t (0 : Fin 2) * 784 + 1 * k.val = k.val; omega
    | ⟨1, _⟩ => show win0_1.index t (1 : Fin 2) * 64 + 1 * j.val = j.val; omega)
  rw [h]

theorem sw1blk_at (c : Dev nD) (t : Fin cfg0.N) (j : Fin 64) : sw1blk m c t (ix2 (0 : Fin 1) j) = ∑ k : Fin 784, W1 m c (ix2 j k) := by
  obtain ⟨-, -, -, -, e0, e1, -⟩ := idx_facts t
  refine Eq.trans ?_ (sw1_at m c j)
  show V m c main_v3 (((cfg0.win 2).blk t).view.emb (ix2 (0 : Fin 1) j)) = V m c main_v3 (ix2 (0 : Fin 1) j)
  have h : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 64 + 1 * j.val = j.val; omega)
  rw [h]

theorem w2tblk_at (c : Dev nD) (t : Fin cfg0.N) (j : Fin 64) : w2tblk m c t (ix2 j (0 : Fin 1)) = W2 m c (ix2 (0 : Fin 1) j) := by
  obtain ⟨-, -, -, -, -, -, e0, e1, -⟩ := idx_facts t
  refine Eq.trans ?_ (w2t_at m c j)
  show V m c main_v5 (((cfg0.win 3).blk t).view.emb (ix2 j (0 : Fin 1))) = V m c main_v5 (ix2 j (0 : Fin 1))
  have h : ((cfg0.win 3).blk t).view.emb (ix2 j (0 : Fin 1)) = ix2 j (0 : Fin 1) := funext fun a => Fin.ext (by
    match a with
    | ⟨0, _⟩ => show win0_3.index t (0 : Fin 2) * 64 + 1 * j.val = j.val; omega
    | ⟨1, _⟩ => show win0_3.index t (1 : Fin 2) * 1 + 1 * 0 = 0; omega)
  rw [h]

theorem sw2blk_at (c : Dev nD) (t : Fin cfg0.N) : sw2blk m c t (ix2 (0 : Fin 1) (0 : Fin 1)) = ∑ j : Fin 64, W2 m c (ix2 (0 : Fin 1) j) := by
  obtain ⟨-, -, -, -, -, -, -, -, e0, e1, -⟩ := idx_facts t
  refine Eq.trans ?_ (sw2_at m c)
  show V m c main_v7 (((cfg0.win 4).blk t).view.emb (ix2 (0 : Fin 1) (0 : Fin 1))) = V m c main_v7 (ix2 (0 : Fin 1) (0 : Fin 1))
  have h : ((cfg0.win 4).blk t).view.emb (ix2 (0 : Fin 1) (0 : Fin 1)) = ix2 (0 : Fin 1) (0 : Fin 1) := funext fun a => Fin.ext (by
    match a with
    | ⟨0, _⟩ => show win0_4.index t (0 : Fin 2) * 1 + 1 * 0 = 0; omega
    | ⟨1, _⟩ => show win0_4.index t (1 : Fin 2) * 1 + 1 * 0 = 0; omega)
  rw [h]

/-! ## What a point writes back -/

/-- A hidden unit computed from the blocks at point t is the network's hidden unit of row 2048·t + r. -/
theorem hid_blk (c : Dev nD) (t : Fin cfg0.N) (r : Fin 2048) (b : Fin 65536) (hb : b.val = t.val * 2048 + r.val) (j : Fin 64) :
    hid (xblk m c t) (w1tblk m c t) (sw1blk m c t) r j = XorNet.hidden (X m c) (W1 m c) b j := by
  unfold hid XorNet.hidden
  simp only [xblk_at m c t r b hb, w1tblk_at, sw1blk_at]

/-- An entry of the stored block by its row. -/
theorem out_block_at (P0 : FVec Ideal S2048x784 .f32) (P1 : FVec Ideal S784x64 .bf16) (P2 : FVec Ideal S1x64 .f32)
    (P3 : FVec Ideal S1x1 .f32) (P4 : FVec Ideal S64x1 .bf16) (y : S2048x1.Idx) (r : Fin 2048) (hr : (y 0).val = r.val) :
    k0_pay1 (F := Ideal) (k0_pay3 P0 P1 P2 P4) (k0_pay4 P0 P1 P2) P3 y
      = ste (Ideal.ofBits .f32 0x3C800000#32) (Ideal.ofBits .f32 0x42000000#32)
          (lin (∑ j : Fin 64, hid P0 P1 P2 r j) (P3 (ix2 (0 : Fin 1) (0 : Fin 1)))
            (∑ j : Fin 64, hid P0 P1 P2 r j * P4 (ix2 j (0 : Fin 1)))) := by
  have h1 : (y 1).val < 1 := idx2_lt1 y
  have hy : y = ix2 r (0 : Fin 1) := funext fun a => Fin.ext (by
    match a with
    | ⟨0, _⟩ => exact hr
    | ⟨1, _⟩ => show (y 1).val = 0; omega)
  rw [hy]
  exact out_block_apply P0 P1 P2 P3 P4 r

/-- The network at an index by its row. -/
theorem net_at (x : FVec Ideal S65536x784 .f32) (w1 : FVec Ideal S64x784 .f32) (w2 : FVec Ideal S1x64 .f32)
    (i : S65536x1.Idx) (b : Fin 65536) (hb : (i 0).val = b.val) : net x w1 w2 i = outRow x w1 w2 b := by
  unfold net
  exact congrArg (outRow x w1 w2) (Fin.ext hb)

/-- WHAT POINT t WRITES BACK is block t of the network of the argument arrays. -/
theorem flushed_eq (c : Dev nD) (t : Fin cfg0.N) :
    (dats m 0 c).flushed 5 t = ((cfg0.win 5).blk t).view.read (Elt Ideal) (net (X m c) (W1 m c) (W2 m c)) := by
  rw [ValueP.flushed5]
  unfold out0_5
  rw [View.canon_unit_zero hz]
  simp only [View.ld_unit_zero (S := S2048x784) hz, View.ld_unit_zero (S := S784x64) hz, View.ld_unit_zero (S := S1x64) hz,
    View.ld_unit_zero (S := S64x1) hz, View.ld_unit_zero (S := S1x1) hz]
  obtain ⟨e0, e1⟩ := (idx_facts t).2.2.2.2.2.2.2.2.2.2
  funext y
  have hy0 : (y 0).val < 2048 := (y 0).isLt
  have ht : t.val < 32 := t.isLt
  refine (out_block_at (xblk m c t) (w1tblk m c t) (sw1blk m c t) (sw2blk m c t) (w2tblk m c t) y ⟨(y 0).val, hy0⟩ rfl).trans ?_
  have hb : (⟨t.val * 2048 + (y 0).val, by omega⟩ : Fin 65536).val = t.val * 2048 + (⟨(y 0).val, hy0⟩ : Fin 2048).val := rfl
  refine Eq.trans ?_ (net_at (X m c) (W1 m c) (W2 m c) (((cfg0.win 5).blk t).view.emb y) ⟨t.val * 2048 + (y 0).val, by omega⟩
    (by show win0_5.index t (0 : Fin 2) * 2048 + 1 * (y 0).val = t.val * 2048 + (y 0).val; omega)).symm
  unfold outRow
  simp only [hid_blk m c t ⟨(y 0).val, hy0⟩ ⟨t.val * 2048 + (y 0).val, by omega⟩ hb, sw2blk_at, w2tblk_at]

/-! ## The blocks tile the result -/

/-- An index of the result is in point t's block iff each coordinate is in the block's range on its axis. -/
theorem mem_blk (t : Fin cfg0.N) (i : S65536x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v8).slice (win0_5.rect t)).set ↔ _
  rw [View.set_slice_whole, Rect.mem_set_unit]
  exact Iff.rfl

/-- Row i of the result lies in the block of point i / 2048. -/
theorem cover (i : S65536x1.Idx) : ∃ t : Fin cfg0.N, (cfg0.win 5).flush t = true ∧ i ∈ ((cfg0.win 5).blk t).view.set := by
  have hi0 : (i 0).val < 65536 := (i 0).isLt
  have hi1 : (i 1).val < 1 := (i 1).isLt
  have hlt : (i 0).val / 2048 < 32 := by omega
  obtain ⟨e0, e1⟩ := (idx_facts (⟨(i 0).val / 2048, hlt⟩ : Fin cfg0.N)).2.2.2.2.2.2.2.2.2.2
  refine ⟨⟨(i 0).val / 2048, hlt⟩, flush0_5 _, ?_⟩
  rw [mem_blk]
  intro a
  match a with
  | ⟨0, _⟩ =>
    show win0_5.index (⟨(i 0).val / 2048, hlt⟩ : Fin cfg0.N) (0 : Fin 2) * 2048 ≤ (i 0).val ∧ (i 0).val < win0_5.index (⟨(i 0).val / 2048, hlt⟩ : Fin cfg0.N) (0 : Fin 2) * 2048 + 2048
    rw [e0]
    show (i 0).val / 2048 * 2048 ≤ (i 0).val ∧ (i 0).val < (i 0).val / 2048 * 2048 + 2048
    omega
  | ⟨1, _⟩ =>
    show win0_5.index (⟨(i 0).val / 2048, hlt⟩ : Fin cfg0.N) (1 : Fin 2) * 1 ≤ (i 1).val ∧ (i 1).val < win0_5.index (⟨(i 0).val / 2048, hlt⟩ : Fin cfg0.N) (1 : Fin 2) * 1 + 1
    omega

/-! ## The run -/

/-- THE RESULT ARRAY after the run is the network of the argument arrays. -/
theorem final (c : Dev nD) : (dats m 0 c).arrAt 5 cfg0.N = net (X m c) (W1 m c) (W2 m c) :=
  (dats m 0 c).arrAt_eq_of_cover 5 (net (X m c) (W1 m c) (W2 m c)) (fun t _ => flushed_eq m c t) cover

/-- Every weakly fair execution terminates with the result at the network of the arguments, the arguments unchanged. -/
theorem run : θ_run defs (onTc (τ := τ) (main (F := Ideal))) ⟨m, fun _ => 0, ρ⟩ fun r => ∀ c : Dev nD,
      r.2.mem ((c : Thread nD τ).loc main_v8) = net (X m c) (W1 m c) (W2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (ValueP.run_blocks m ρ)

end Cert.KernelIdeal.ArrayValue

end
-- ==== Proof.ReferenceIsNet.lean ====
/-
  The reference program's last stage is the two-layer soft-XOR network.

  Read one operation at a time, the reference computes, for a row b and a hidden unit j,
      s₁ = (Σ_k x[b,k] + Σ_k w1[j,k]) − 2 · Σ_k x[b,k] · w1[j,k]
  (each plain sum starts from the literal zero, and 0 + t = t on the extended reals), then the logistic
  surrogate σ = 1 / (1 + exp (−(10 · (s₁ / 784 − 1/2)))), the indicator of s₁ > 392 read unsigned from the
  one-bit comparison, and h = σ + (indicator − σ). The second layer does the same over the 64 hidden units
  with the one weight row w2, the divisor 64 and the threshold 32. A quotient by 784 or by 64 is the product
  with the reciprocal on every extended real, so each layer is the threshold unit of the specification, and
  the result at index (b, 0) is the specification's output of row b.
-/
import proofs.«146563_j8486855377349_1_alg».proof.Proof.Gen.ReferenceIdeal.Read
import proofs.«146563_j8486855377349_1_alg».proof.Proof.XorNet
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.StableHlo

/-- The layer-1 pre-activation at (b, j): the two plain row sums minus twice the inner product. -/
theorem v11_at (x0 : (⟨S65536x784, .f32⟩ : BufTy).Contents (Elt Ideal)) (x1 : (⟨S64x784, .f32⟩ : BufTy).Contents (Elt Ideal))
    (b : Fin 65536) (j : Fin 64) :
    val_main_v11 (F := Ideal) x0 x1 (ix2 b j) =
      XorNet.lin (∑ k : Fin 784, x0 (ix2 b k)) (∑ k : Fin 784, x1 (ix2 j k))
        (∑ k : Fin 784, x0 (ix2 b k) * x1 (ix2 j k)) := by
  rw [val_main_v11_apply, val_main_v6_apply, val_main_v4_apply, val_main_v1_apply, val_main_v0_apply,
    val_main_v5_apply, val_main_v3_apply, val_main_v2_apply, val_main_v10_apply, val_main_v9_apply,
    val_main_v8_apply, val_main_cst_apply, val_main_cst_0_apply, val_main_cst_1_apply]
  have e0 : ∀ k : Fin 784, idx_main_v0 (idx_main_v1 (idx_main_v4 (ix2 b j))) k = ix2 b k := fun k =>
    funext fun a => Fin.ext (by match a with | ⟨0, _⟩ => rfl | ⟨1, _⟩ => rfl)
  have e2 : ∀ k : Fin 784, idx_main_v2 (idx_main_v3 (idx_main_v5 (ix2 b j))) k = ix2 j k := fun k =>
    funext fun a => Fin.ext (by match a with | ⟨0, _⟩ => rfl | ⟨1, _⟩ => rfl)
  have el : ∀ k : Fin 784, lidx_main_v8 (ix2 b j) k = ix2 b k := fun k =>
    funext fun a => Fin.ext (by match a with | ⟨0, _⟩ => rfl | ⟨1, _⟩ => rfl)
  have er : ∀ k : Fin 784, idx_main_v7 (ridx_main_v8 (ix2 b j) k) = ix2 j k := fun k =>
    funext fun a => Fin.ext (by match a with | ⟨0, _⟩ => rfl | ⟨1, _⟩ => rfl)
  simp only [val_main_v7_apply, e0, e2, el, er, Ideal.ofBits_def, Ideal.addf_def, Ideal.subf_def, Ideal.mulf_def,
    Ideal.ofBits_zero_f32, zero_add]
  rfl

/-- The layer-1 activation at (b, j) is the hidden unit j of row b. -/
theorem v28_at (x0 : (⟨S65536x784, .f32⟩ : BufTy).Contents (Elt Ideal)) (x1 : (⟨S64x784, .f32⟩ : BufTy).Contents (Elt Ideal))
    (b : Fin 65536) (j : Fin 64) :
    val_main_v28 (F := Ideal) x0 x1 (ix2 b j) = XorNet.hidden x0 x1 b j := by
  rw [val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_cst_2_apply, val_main_cst_3_apply, val_main_cst_4_apply,
    val_main_cst_5_apply, val_main_cst_6_apply, val_main_cst_7_apply, v11_at]
  simp only [Ideal.ofBits_def, Ideal.addf_def, Ideal.subf_def, Ideal.mulf_def, Ideal.hostDivf_def,
    Ideal.hostNegf_def, Ideal.negf_def, Ideal.hostUnary_exp_def, Ideal.cmpf_def]
  exact XorNet.ste_div XorNet.div_784 _ _

/-- The layer-2 pre-activation at (b, 0): the same soft XOR over the 64 hidden units of row b. -/
theorem v39_at (x0 : (⟨S65536x784, .f32⟩ : BufTy).Contents (Elt Ideal)) (x1 : (⟨S64x784, .f32⟩ : BufTy).Contents (Elt Ideal))
    (x2 : (⟨S1x64, .f32⟩ : BufTy).Contents (Elt Ideal)) (b : Fin 65536) :
    val_main_v39 (F := Ideal) x0 x1 x2 (ix2 b (0 : Fin 1)) =
      XorNet.lin (∑ j : Fin 64, XorNet.hidden x0 x1 b j) (∑ j : Fin 64, x2 (ix2 (0 : Fin 1) j))
        (∑ j : Fin 64, XorNet.hidden x0 x1 b j * x2 (ix2 (0 : Fin 1) j)) := by
  rw [val_main_v39_apply, val_main_v34_apply, val_main_v30_apply, val_main_v29_apply, val_main_v33_apply,
    val_main_v32_apply, val_main_v31_apply, val_main_v38_apply, val_main_v37_apply, val_main_v36_apply,
    val_main_cst_8_apply, val_main_cst_9_apply, val_main_cst_10_apply]
  have e29 : ∀ k : Fin 64, idx_main_v29 (idx_main_v30 (ix2 b (0 : Fin 1))) k = ix2 b k := fun k =>
    funext fun a => Fin.ext (by match a with | ⟨0, _⟩ => rfl | ⟨1, _⟩ => rfl)
  have e31 : ∀ k : Fin 64, idx_main_v31 (idx_main_v32 (idx_main_v33 (ix2 b (0 : Fin 1)))) k = ix2 (0 : Fin 1) k := fun k =>
    funext fun a => Fin.ext (by match a with | ⟨0, _⟩ => rfl | ⟨1, _⟩ => rfl)
  have el : ∀ k : Fin 64, lidx_main_v36 (ix2 b (0 : Fin 1)) k = ix2 b k := fun k =>
    funext fun a => Fin.ext (by match a with | ⟨0, _⟩ => rfl | ⟨1, _⟩ => rfl)
  have er : ∀ k : Fin 64, idx_main_v35 (ridx_main_v36 (ix2 b (0 : Fin 1)) k) = ix2 (0 : Fin 1) k := fun k =>
    funext fun a => Fin.ext (by match a with | ⟨0, _⟩ => rfl | ⟨1, _⟩ => rfl)
  simp only [val_main_v35_apply, e29, e31, el, er, v28_at, Ideal.ofBits_def, Ideal.addf_def, Ideal.subf_def,
    Ideal.mulf_def, Ideal.ofBits_zero_f32, zero_add]
  rfl

/-- The last stage at (b, 0) is the output of row b. -/
theorem v56_at (x0 : (⟨S65536x784, .f32⟩ : BufTy).Contents (Elt Ideal)) (x1 : (⟨S64x784, .f32⟩ : BufTy).Contents (Elt Ideal))
    (x2 : (⟨S1x64, .f32⟩ : BufTy).Contents (Elt Ideal)) (b : Fin 65536) :
    val_main_v56 (F := Ideal) x0 x1 x2 (ix2 b (0 : Fin 1)) = XorNet.outRow x0 x1 x2 b := by
  rw [val_main_v56_apply, val_main_v55_apply, val_main_v54_apply, val_main_v53_apply, val_main_v52_apply,
    val_main_v51_apply, val_main_v50_apply, val_main_v49_apply, val_main_v48_apply, val_main_v47_apply,
    val_main_v46_apply, val_main_v45_apply, val_main_v44_apply, val_main_v43_apply, val_main_v42_apply,
    val_main_v41_apply, val_main_v40_apply, val_main_cst_11_apply, val_main_cst_12_apply, val_main_cst_13_apply,
    val_main_cst_14_apply, val_main_cst_15_apply, val_main_cst_16_apply, v39_at]
  simp only [Ideal.ofBits_def, Ideal.addf_def, Ideal.subf_def, Ideal.mulf_def, Ideal.hostDivf_def,
    Ideal.hostNegf_def, Ideal.negf_def, Ideal.hostUnary_exp_def, Ideal.cmpf_def]
  exact XorNet.ste_div XorNet.div_64 _ _

/-- The last stage is the network: every index of a 65536×1 array is (b, 0). -/
theorem ref_is_net (x0 : (⟨S65536x784, .f32⟩ : BufTy).Contents (Elt Ideal)) (x1 : (⟨S64x784, .f32⟩ : BufTy).Contents (Elt Ideal)) (x2 : (⟨S1x64, .f32⟩ : BufTy).Contents (Elt Ideal)) :
    Cert.ReferenceIdeal.Read.val_main_v56 (F := Ideal) x0 x1 x2 = Cert.XorNet.net x0 x1 x2 := by
  funext i
  obtain ⟨b, q, rfl⟩ : ∃ (b : Fin 65536) (q : Fin 1), i = ix2 b q := ⟨i 0, i 1, eq_ix2 i⟩
  obtain rfl : q = 0 := Subsingleton.elim q 0
  rw [v56_at]
  rfl

end Cert.ReferenceIdeal.RefValue

end
-- ==== Proof.lean ====
/-
  The kernel and its reference compute the same [65536, 1] array over the extended reals.

  Both apply, to each of the 65536 rows of x, a two-layer network of "soft XOR" units with a straight-through
  majority threshold (Proof/XorNet.lean states it as one function, `XorNet.net`): layer one has fan-in 784 and 64
  units, layer two fan-in 64 and one unit. The reference spells a unit's pre-activation as
  (Σ x + Σ w) − 2 (x · w) over whole arrays, divides by the fan-in, negates, and reads the comparison bit unsigned;
  the kernel works on blocks of 2048 rows against weights the host transposed and summed beforehand, multiplies
  by the reciprocal of the fan-in (for 784 the named rational 1/784, for 64 the exact literal 1/64), writes the
  negation as 0 − z, and reads the comparison bit, widened by zeros, signed. On the extended reals these are equal
  for every input, finite or not, so the precondition is never opened: Proof/ReferenceIsNet.lean reads the
  reference's last stage as the network, Proof/BlockValue.lean reads one row of the block the kernel body
  stores, and Proof/KernelIsNet.lean reads each block entry off its array and tiles the result with the 32 blocks.
  The three frames are the generated runs; the one rewrite of the idealization is the named reciprocal.
-/
import proofs.«146563_j8486855377349_1_alg».proof.Defs
import proofs.«146563_j8486855377349_1_alg».proof.Proof.Gen.Kernel
import proofs.«146563_j8486855377349_1_alg».proof.Proof.Gen.Kernel.Skeleton
import proofs.«146563_j8486855377349_1_alg».proof.Proof.Gen.Kernel.Launch
import proofs.«146563_j8486855377349_1_alg».proof.Proof.Gen.Kernel.Points
import proofs.«146563_j8486855377349_1_alg».proof.Proof.Gen.Kernel.Frame
import proofs.«146563_j8486855377349_1_alg».proof.Proof.Gen.KernelIdeal
import proofs.«146563_j8486855377349_1_alg».proof.Proof.Gen.KernelIdeal.Skeleton
import proofs.«146563_j8486855377349_1_alg».proof.Proof.Gen.KernelIdeal.Launch
import proofs.«146563_j8486855377349_1_alg».proof.Proof.Gen.KernelIdeal.Points
import proofs.«146563_j8486855377349_1_alg».proof.Proof.Gen.KernelIdeal.Frame
import proofs.«146563_j8486855377349_1_alg».proof.Proof.Gen.ReferenceIdeal
import proofs.«146563_j8486855377349_1_alg».proof.Proof.Gen.Pre_finite_inputs
import proofs.«146563_j8486855377349_1_alg».proof.Proof.Gen.ReferenceIdeal.Run
import proofs.«146563_j8486855377349_1_alg».proof.Proof.Gen.ReferenceIdeal.Read
import proofs.«146563_j8486855377349_1_alg».proof.Proof.KernelIsNet
import proofs.«146563_j8486855377349_1_alg».proof.Proof.ReferenceIsNet
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite: the table gives "inv_784" the rational 1/784, which the printed constant is at the extended reals. -/
theorem preserves : Cert.preserves_Kernel_KernelIdeal :=
  IdealRules.named_const.statement Cert.KernelIdeal.κ "inv_784" .f32 0x3AA72F05#32 ((1 / 784 : ℝ) : EReal) rfl

/-- Both runs end with the network of the (agreeing) argument arrays as the result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_is_net,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
